-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x2 : Shape := ⟨2, ![2097152, 2]⟩
abbrev S32x2 : Shape := ⟨2, ![32, 2]⟩
abbrev S32 : Shape := ⟨1, ![32]⟩
abbrev S8x32x32 : Shape := ⟨3, ![8, 32, 32]⟩
abbrev S8x32 : Shape := ⟨2, ![8, 32]⟩
abbrev S1x32 : Shape := ⟨2, ![1, 32]⟩
abbrev S1 : Shape := ⟨1, ![1]⟩
abbrev S_ : Shape := ⟨0, ![]⟩

class Facts : Prop where
  bcast_S_S2097152x2 : S_.BroadcastsInDim S2097152x2 (![] : Fin 0 → Fin S2097152x2.rank)
  reducesTo_S2097152x2_S_d0_1 : S2097152x2.ReducesTo [0, 1] S_
  h_S_ : 0 < S_.numel
  bcast_S_S32x2 : S_.BroadcastsInDim S32x2 (![] : Fin 0 → Fin S32x2.rank)
  reducesTo_S32x2_S_d0_1 : S32x2.ReducesTo [0, 1] S_
  bcast_S_S32 : S_.BroadcastsInDim S32 (![] : Fin 0 → Fin S32.rank)
  reducesTo_S32_S_d0 : S32.ReducesTo [0] S_
  bcast_S_S8x32x32 : S_.BroadcastsInDim S8x32x32 (![] : Fin 0 → Fin S8x32x32.rank)
  reducesTo_S8x32x32_S_d0_1_2 : S8x32x32.ReducesTo [0, 1, 2] S_
  bcast_S_S8x32 : S_.BroadcastsInDim S8x32 (![] : Fin 0 → Fin S8x32.rank)
  reducesTo_S8x32_S_d0_1 : S8x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S8x32 .f32) (main_arg5 : FVec F S1x32 .f32) (main_arg6 : FVec F S1 .f32) (main_v13 : IVec S_ 1) (main_v16 : IVec S8x32x32 1) : IVec S_ 1 :=
  let main_c_5 : IVec S_ 1 := constantI S_ 1 1#1
  let main_v17 : IVec S_ 1 := (fun x v => Host.reduce IntOp.andi x v reducesTo_S8x32x32_S_d0_1_2 h_S_) main_v16 main_c_5
  let main_v18 : IVec S_ 1 := andi main_v13 main_v17
  let main_v19 : FVec F S8x32 .f32 := Host.absf main_arg4
  let main_cst_6 : FVec F S_ .f32 := constant S_ .f32 0x7F800000#32
  let main_v20 : FVec F S8x32 .f32 := broadcastInDim S8x32 ![] bcast_S_S8x32 main_cst_6
  let main_v21 : IVec S8x32 1 := cmpf .olt main_v19 main_v20
  let main_c_7 : IVec S_ 1 := constantI S_ 1 1#1
  let main_v22 : IVec S_ 1 := (fun x v => Host.reduce IntOp.andi x v reducesTo_S8x32_S_d0_1 h_S_) main_v21 main_c_7
  let main_v23 : IVec S_ 1 := andi main_v18 main_v22
  let main_v24 : FVec F S1x32 .f32 := Host.absf main_arg5
  let main_cst_8 : FVec F S_ .f32 := constant S_ .f32 0x7F800000#32
  let main_v25 : FVec F S1x32 .f32 := broadcastInDim S1x32 ![] bcast_S_S1x32 main_cst_8
  let main_v26 : IVec S1x32 1 := cmpf .olt main_v24 main_v25
  let main_c_9 : IVec S_ 1 := constantI S_ 1 1#1
  let main_v27 : IVec S_ 1 := (fun x v => Host.reduce IntOp.andi x v reducesTo_S1x32_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S2097152x2 .f32) (main_arg1 : FVec F S32x2 .f32) (main_arg2 : FVec F S32 .f32) (main_arg3 : FVec F S8x32x32 .f32) (main_arg4 : FVec F S8x32 .f32) (main_arg5 : FVec F S1x32 .f32) (main_arg6 : FVec F S1 .f32) : IVec S_ 1 :=
  let main_v0 : FVec F S2097152x2 .f32 := Host.absf main_arg0
  let main_cst : FVec F S_ .f32 := constant S_ .f32 0x7F800000#32
  let main_v1 : FVec F S2097152x2 .f32 := broadcastInDim S2097152x2 ![] bcast_S_S2097152x2 main_cst
  let main_v2 : IVec S2097152x2 1 := cmpf .olt main_v0 main_v1
  let main_c : IVec S_ 1 := constantI S_ 1 1#1
  let main_v3 : IVec S_ 1 := (fun x v => Host.reduce IntOp.andi x v reducesTo_S2097152x2_S_d0_1 h_S_) main_v2 main_c
  let main_v4 : FVec F S32x2 .f32 := Host.absf main_arg1
  let main_cst_0 : FVec F S_ .f32 := constant S_ .f32 0x7F800000#32
  let main_v5 : FVec F S32x2 .f32 := broadcastInDim S32x2 ![] bcast_S_S32x2 main_cst_0
  let main_v6 : IVec S32x2 1 := cmpf .olt main_v4 main_v5
  let main_c_1 : IVec S_ 1 := constantI S_ 1 1#1
  let main_v7 : IVec S_ 1 := (fun x v => Host.reduce IntOp.andi x v reducesTo_S32x2_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S8x32x32 .f32 := Host.absf main_arg3
  let main_cst_4 : FVec F S_ .f32 := constant S_ .f32 0x7F800000#32
  let main_v15 : FVec F S8x32x32 .f32 := broadcastInDim S8x32x32 ![] bcast_S_S8x32x32 main_cst_4
  let main_v16 : IVec S8x32x32 1 := cmpf .olt main_v14 main_v15
  fn_part1 (F := F) main_arg4 main_arg5 main_arg6 main_v13 main_v16
-- ==== Kernel.lean ====
abbrev S2097152x2 : Shape := ⟨2, ![2097152, 2]⟩
abbrev S32x2 : Shape := ⟨2, ![32, 2]⟩
abbrev S32 : Shape := ⟨1, ![32]⟩
abbrev S8x32x32 : Shape := ⟨3, ![8, 32, 32]⟩
abbrev S8x32 : Shape := ⟨2, ![8, 32]⟩
abbrev S1x32 : Shape := ⟨2, ![1, 32]⟩
abbrev S1 : Shape := ⟨1, ![1]⟩
abbrev S2097152x1 : Shape := ⟨2, ![2097152, 1]⟩
abbrev S8192x2 : Shape := ⟨2, ![8192, 2]⟩
abbrev S8192x1 : Shape := ⟨2, ![8192, 1]⟩
abbrev S2x32 : Shape := ⟨2, ![2, 32]⟩
abbrev S8192x32 : Shape := ⟨2, ![8192, 32]⟩
abbrev S1x32x32 : Shape := ⟨3, ![1, 32, 32]⟩
abbrev S32x32 : Shape := ⟨2, ![32, 32]⟩
abbrev S32x1 : Shape := ⟨2, ![32, 1]⟩
abbrev S1x1 : Shape := ⟨2, ![1, 1]⟩

abbrev nBuf : Space → Nat
  | .hbm => 8
  | .vmem => 10
  | .smem => 0
  | _ => 0

abbrev bufTy : (tb : Table) → Fin (tcTables nBuf tb) → BufTy
  | .hbm, ⟨0, _⟩ => ⟨S2097152x2, .f32⟩
  | .hbm, ⟨1, _⟩ => ⟨S32x2, .f32⟩
  | .hbm, ⟨2, _⟩ => ⟨S32, .f32⟩
  | .hbm, ⟨3, _⟩ => ⟨S8x32x32, .f32⟩
  | .hbm, ⟨4, _⟩ => ⟨S8x32, .f32⟩
  | .hbm, ⟨5, _⟩ => ⟨S1x32, .f32⟩
  | .hbm, ⟨6, _⟩ => ⟨S1, .f32⟩
  | .hbm, ⟨7, _⟩ => ⟨S2097152x1, .f32⟩
  | .local _ .vmem, ⟨0, _⟩ => ⟨S8192x2, .f32⟩
  | .local _ .vmem, ⟨1, _⟩ => ⟨S8192x2, .f32⟩
  | .local _ .vmem, ⟨2, _⟩ => ⟨S32x2, .f32⟩
  | .local _ .vmem, ⟨3, _⟩ => ⟨S32, .f32⟩
  | .local _ .vmem, ⟨4, _⟩ => ⟨S8x32x32, .f32⟩
  | .local _ .vmem, ⟨5, _⟩ => ⟨S8x32, .f32⟩
  | .local _ .vmem, ⟨6, _⟩ => ⟨S1x32, .f32⟩
  | .local _ .vmem, ⟨7, _⟩ => ⟨S1, .f32⟩
  | .local _ .vmem, ⟨8, _⟩ => ⟨S8192x1, .f32⟩
  | .local _ .vmem, ⟨9, _⟩ => ⟨S8192x1, .f32⟩
  | _, _ => ⟨S2097152x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S8192x2_S8192x2_0_0 : ∀ a, (![0, 0] : Fin 2 → Nat) a + S8192x2.size a ≤ S8192x2.size a
  h_S8192x2 : 0 < S8192x2.numel
  bitsLt_bf16_f32 : FTy.bits .bf16 < FTy.bits .f32
  inb_S32x2_S32x2_0_0 : ∀ a, (![0, 0] : Fin 2 → Nat) a + S32x2.size a ≤ S32x2.size a
  h_S32x2 : 0 < S32x2.numel
  transposes_S32x2_p1_0_S2x32 : S32x2.Transposes [1, 0] S2x32
  inb_S32_S32_0 : ∀ a, (![0] : Fin 1 → Nat) a + S32.size a ≤ S32.size a
  h_S32 : 0 < S32.numel
  shapeCasts_S32_S1x32 : S32.ShapeCasts S1x32
  broadcasts_S1x32_S8192x32 : S1x32.Broadcasts S8192x32
  inb_S8x32x32_S1x32x32_0_0_0 : ∀ a, (![0, 0, 0] : Fin 3 → Nat) a + S1x32x32.size a ≤ S8x32x32.size a
  h_S1x32x32 : 0 < S1x32x32.numel
  shapeCasts_S1x32x32_S32x32 : S1x32x32.ShapeCasts S32x32
  inb_S8x32_S1x32_0_0 : ∀ a, (![0, 0] : Fin 2 → Nat) a + S1x32.size a ≤ S8x32.size a
  h_S1x32 : 0 < S1x32.numel
  shapeCasts_S1x32_S32 : S1x32.ShapeCasts S32
  transposes_S32x32_p1_0_S32x32 : S32x32.Transposes [1, 0] S32x32
  inb_S8x32x32_S1x32x32_1_0_0 : ∀ a, (![1, 0, 0] : Fin 3 → Nat) a + S1x32x32.size a ≤ S8x32x32.size a
  inb_S8x32_S1x32_1_0 : ∀ a, (![1, 0] : Fin 2 → Nat) a + S1x32.size a ≤ S8x32.size a
  inb_S8x32x32_S1x32x32_2_0_0 : ∀ a, (![2, 0, 0] : Fin 3 → Nat) a + S1x32x32.size a ≤ S8x32x32.size a
  inb_S8x32_S1x32_2_0 : ∀ a, (![2, 0] : Fin 2 → Nat) a + S1x32.size a ≤ S8x32.size a
  inb_S8x32x32_S1x32x32_3_0_0 : ∀ a, (![3, 0, 0] : Fin 3 → Nat) a + S1x32x32.size a ≤ S8x32x32.size a
  inb_S8x32_S1x32_3_0 : ∀ a, (![3, 0] : Fin 2 → Nat) a + S1x32.size a ≤ S8x32.size a
  inb_S8x32x32_S1x32x32_4_0_0 : ∀ a, (![4, 0, 0] : Fin 3 → Nat) a + S1x32x32.size a ≤ S8x32x32.size a
  inb_S8x32_S1x32_4_0 : ∀ a, (![4, 0] : Fin 2 → Nat) a + S1x32.size a ≤ S8x32.size a
  inb_S8x32x32_S1x32x32_5_0_0 : ∀ a, (![5, 0, 0] : Fin 3 → Nat) a + S1x32x32.size a ≤ S8x32x32.size a
  inb_S8x32_S1x32_5_0 : ∀ a, (![5, 0] : Fin 2 → Nat) a + S1x32.size a ≤ S8x32.size a
  inb_S8x32x32_S1x32x32_6_0_0 : ∀ a, (![6, 0, 0] : Fin 3 → Nat) a + S1x32x32.size a ≤ S8x32x32.size a
  inb_S8x32_S1x32_6_0 : ∀ a, (![6, 0] : Fin 2 → Nat) a + S1x32.size a ≤ S8x32.size a
  inb_S8x32x32_S1x32x32_7_0_0 : ∀ a, (![7, 0, 0] : Fin 3 → Nat) a + S1x32x32.size a ≤ S8x32x32.size a
  inb_S8x32_S1x32_7_0 : ∀ a, (![7, 0] : Fin 2 → Nat) a + S1x32.size a ≤ S8x32.size a
  inb_S1x32_S1x32_0_0 : ∀ a, (![0, 0] : Fin 2 → Nat) a + S1x32.size a ≤ S1x32.size a
  transposes_S1x32_p1_0_S32x1 : S1x32.Transposes [1, 0] S32x1
  inb_S1_S1_0 : ∀ a, (![0] : Fin 1 → Nat) a + S1.size a ≤ S1.size a
  h_S1 : 0 < S1.numel
  shapeCasts_S1_S1x1 : S1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  dot_S8192x2_S2x32_S8192x32_1_0_0_1_n_n_wf : DotDims.WF S8192x2 S2x32 S8192x32 [1] [0] [0] [1] [] []
  dot_S8192x32_S32x32_S8192x32_1_0_0_1_n_n_wf : DotDims.WF S8192x32 S32x32 S8192x32 [1] [0] [0] [1] [] []
  dot_S8192x32_S32x1_S8192x1_1_0_0_1_n_n_wf : DotDims.WF S8192x32 S32x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x2.size a ≤ S2097152x2.size a
  hwx0_0 : ∀ i : grid0.Coords, EltTy.bits .f32 = 32 ∨ (Rect.block (s := S2097152x2) S8192x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x2.size a ≤ S32x2.size a
  hwx0_1 : ∀ i : grid0.Coords, EltTy.bits .f32 = 32 ∨ (Rect.block (s := S32x2) S32x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x32x32.size a ≤ S8x32x32.size a
  hwx0_3 : ∀ i : grid0.Coords, EltTy.bits .f32 = 32 ∨ (Rect.block (s := S8x32x32) S8x32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x32.size a ≤ S8x32.size a
  hwx0_4 : ∀ i : grid0.Coords, EltTy.bits .f32 = 32 ∨ (Rect.block (s := S8x32) S8x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x1.size a ≤ S2097152x1.size a
  hwx0_7 : ∀ i : grid0.Coords, EltTy.bits .f32 = 32 ∨ (Rect.block (s := S2097152x1) S8192x1.size (cc0_transform_7 i) (hinb0_7 i)).WholeWords (EltTy.packing .f32)

variable [Facts₀]

def dot_S8192x2_S2x32_S8192x32_1_0_0_1_n_n : DotDims S8192x2 S2x32 S8192x32 where
  lhsContracting := [1]
  rhsContracting := [0]
  lhsNonContracting := [0]
  rhsNonContracting := [1]
  lhsBatch := []
  rhsBatch := []
  wf := dot_S8192x2_S2x32_S8192x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x32_S32x1_S8192x1_1_0_0_1_n_n : DotDims S8192x32 S32x1 S8192x1 where
  lhsContracting := [1]
  rhsContracting := [0]
  lhsNonContracting := [0]
  rhsNonContracting := [1]
  lhsBatch := []
  rhsBatch := []
  wf := dot_S8192x32_S32x1_S8192x1_1_0_0_1_n_n_wf

abbrev win0_0 : Pipeline.Window sig grid0 :=
  Pipeline.Window.ofSpec (Memref.whole main_arg0) S8192x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S8192x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2097152x2 : Shape := ⟨2, ![2097152, 2]⟩
abbrev S32x2 : Shape := ⟨2, ![32, 2]⟩
abbrev S32 : Shape := ⟨1, ![32]⟩
abbrev S8x32x32 : Shape := ⟨3, ![8, 32, 32]⟩
abbrev S8x32 : Shape := ⟨2, ![8, 32]⟩
abbrev S1x32 : Shape := ⟨2, ![1, 32]⟩
abbrev S1 : Shape := ⟨1, ![1]⟩
abbrev S2x32 : Shape := ⟨2, ![2, 32]⟩
abbrev S2097152x32 : Shape := ⟨2, ![2097152, 32]⟩
abbrev S_ : Shape := ⟨0, ![]⟩
abbrev S1x32x32 : Shape := ⟨3, ![1, 32, 32]⟩
abbrev S32x32 : Shape := ⟨2, ![32, 32]⟩
abbrev S32x1 : Shape := ⟨2, ![32, 1]⟩
abbrev S2097152x1 : Shape := ⟨2, ![2097152, 1]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S2097152x2, .f32⟩
  | .hbm, ⟨1, _⟩ => ⟨S32x2, .f32⟩
  | .hbm, ⟨2, _⟩ => ⟨S32, .f32⟩
  | .hbm, ⟨3, _⟩ => ⟨S8x32x32, .f32⟩
  | .hbm, ⟨4, _⟩ => ⟨S8x32, .f32⟩
  | .hbm, ⟨5, _⟩ => ⟨S1x32, .f32⟩
  | .hbm, ⟨6, _⟩ => ⟨S1, .f32⟩
  | .hbm, ⟨7, _⟩ => ⟨S2x32, .f32⟩
  | .hbm, ⟨8, _⟩ => ⟨S2097152x32, .f32⟩
  | .hbm, ⟨9, _⟩ => ⟨S1x32, .f32⟩
  | .hbm, ⟨10, _⟩ => ⟨S2097152x32, .f32⟩
  | .hbm, ⟨11, _⟩ => ⟨S2097152x32, .f32⟩
  | .hbm, ⟨12, _⟩ => ⟨S_, .f32⟩
  | .hbm, ⟨13, _⟩ => ⟨S2097152x32, .f32⟩
  | .hbm, ⟨14, _⟩ => ⟨S2097152x32, .f32⟩
  | .hbm, ⟨15, _⟩ => ⟨S1x32x32, .f32⟩
  | .hbm, ⟨16, _⟩ => ⟨S32x32, .f32⟩
  | .hbm, ⟨17, _⟩ => ⟨S32x32, .f32⟩
  | .hbm, ⟨18, _⟩ => ⟨S2097152x32, .f32⟩
  | .hbm, ⟨19, _⟩ => ⟨S1x32, .f32⟩
  | .hbm, ⟨20, _⟩ => ⟨S32, .f32⟩
  | .hbm, ⟨21, _⟩ => ⟨S1x32, .f32⟩
  | .hbm, ⟨22, _⟩ => ⟨S2097152x32, .f32⟩
  | .hbm, ⟨23, _⟩ => ⟨S2097152x32, .f32⟩
  | .hbm, ⟨24, _⟩ => ⟨S_, .f32⟩
  | .hbm, ⟨25, _⟩ => ⟨S2097152x32, .f32⟩
  | .hbm, ⟨26, _⟩ => ⟨S2097152x32, .f32⟩
  | .hbm, ⟨27, _⟩ => ⟨S1x32x32, .f32⟩
  | .hbm, ⟨28, _⟩ => ⟨S32x32, .f32⟩
  | .hbm, ⟨29, _⟩ => ⟨S32x32, .f32⟩
  | .hbm, ⟨30, _⟩ => ⟨S2097152x32, .f32⟩
  | .hbm, ⟨31, _⟩ => ⟨S1x32, .f32⟩
  | .hbm, ⟨32, _⟩ => ⟨S32, .f32⟩
  | .hbm, ⟨33, _⟩ => ⟨S1x32, .f32⟩
  | .hbm, ⟨34, _⟩ => ⟨S2097152x32, .f32⟩
  | .hbm, ⟨35, _⟩ => ⟨S2097152x32, .f32⟩
  | .hbm, ⟨36, _⟩ => ⟨S_, .f32⟩
  | .hbm, ⟨37, _⟩ => ⟨S2097152x32, .f32⟩
  | .hbm, ⟨38, _⟩ => ⟨S2097152x32, .f32⟩
  | .hbm, ⟨39, _⟩ => ⟨S1x32x32, .f32⟩
  | .hbm, ⟨40, _⟩ => ⟨S32x32, .f32⟩
  | .hbm, ⟨41, _⟩ => ⟨S32x32, .f32⟩
  | .hbm, ⟨42, _⟩ => ⟨S2097152x32, .f32⟩
  | .hbm, ⟨43, _⟩ => ⟨S1x32, .f32⟩
  | .hbm, ⟨44, _⟩ => ⟨S32, .f32⟩
  | .hbm, ⟨45, _⟩ => ⟨S1x32, .f32⟩
  | .hbm, ⟨46, _⟩ => ⟨S2097152x32, .f32⟩
  | .hbm, ⟨47, _⟩ => ⟨S2097152x32, .f32⟩
  | .hbm, ⟨48, _⟩ => ⟨S_, .f32⟩
  | .hbm, ⟨49, _⟩ => ⟨S2097152x32, .f32⟩
  | .hbm, ⟨50, _⟩ => ⟨S2097152x32, .f32⟩
  | .hbm, ⟨51, _⟩ => ⟨S1x32x32, .f32⟩
  | .hbm, ⟨52, _⟩ => ⟨S32x32, .f32⟩
  | .hbm, ⟨53, _⟩ => ⟨S32x32, .f32⟩
  | .hbm, ⟨54, _⟩ => ⟨S2097152x32, .f32⟩
  | .hbm, ⟨55, _⟩ => ⟨S1x32, .f32⟩
  | .hbm, ⟨56, _⟩ => ⟨S32, .f32⟩
  | .hbm, ⟨57, _⟩ => ⟨S1x32, .f32⟩
  | .hbm, ⟨58, _⟩ => ⟨S2097152x32, .f32⟩
  | .hbm, ⟨59, _⟩ => ⟨S2097152x32, .f32⟩
  | .hbm, ⟨60, _⟩ => ⟨S_, .f32⟩
  | .hbm, ⟨61, _⟩ => ⟨S2097152x32, .f32⟩
  | .hbm, ⟨62, _⟩ => ⟨S2097152x32, .f32⟩
  | .hbm, ⟨63, _⟩ => ⟨S1x32x32, .f32⟩
  | .hbm, ⟨64, _⟩ => ⟨S32x32, .f32⟩
  | .hbm, ⟨65, _⟩ => ⟨S32x32, .f32⟩
  | .hbm, ⟨66, _⟩ => ⟨S2097152x32, .f32⟩
  | .hbm, ⟨67, _⟩ => ⟨S1x32, .f32⟩
  | .hbm, ⟨68, _⟩ => ⟨S32, .f32⟩
  | .hbm, ⟨69, _⟩ => ⟨S1x32, .f32⟩
  | .hbm, ⟨70, _⟩ => ⟨S2097152x32, .f32⟩
  | .hbm, ⟨71, _⟩ => ⟨S2097152x32, .f32⟩
  | .hbm, ⟨72, _⟩ => ⟨S_, .f32⟩
  | .hbm, ⟨73, _⟩ => ⟨S2097152x32, .f32⟩
  | .hbm, ⟨74, _⟩ => ⟨S2097152x32, .f32⟩
  | .hbm, ⟨75, _⟩ => ⟨S1x32x32, .f32⟩
  | .hbm, ⟨76, _⟩ => ⟨S32x32, .f32⟩
  | .hbm, ⟨77, _⟩ => ⟨S32x32, .f32⟩
  | .hbm, ⟨78, _⟩ => ⟨S2097152x32, .f32⟩
  | .hbm, ⟨79, _⟩ => ⟨S1x32, .f32⟩
  | .hbm, ⟨80, _⟩ => ⟨S32, .f32⟩
  | .hbm, ⟨81, _⟩ => ⟨S1x32, .f32⟩
  | .hbm, ⟨82, _⟩ => ⟨S2097152x32, .f32⟩
  | .hbm, ⟨83, _⟩ => ⟨S2097152x32, .f32⟩
  | .hbm, ⟨84, _⟩ => ⟨S_, .f32⟩
  | .hbm, ⟨85, _⟩ => ⟨S2097152x32, .f32⟩
  | .hbm, ⟨86, _⟩ => ⟨S2097152x32, .f32⟩
  | .hbm, ⟨87, _⟩ => ⟨S1x32x32, .f32⟩
  | .hbm, ⟨88, _⟩ => ⟨S32x32, .f32⟩
  | .hbm, ⟨89, _⟩ => ⟨S32x32, .f32⟩
  | .hbm, ⟨90, _⟩ => ⟨S2097152x32, .f32⟩
  | .hbm, ⟨91, _⟩ => ⟨S1x32, .f32⟩
  | .hbm, ⟨92, _⟩ => ⟨S32, .f32⟩
  | .hbm, ⟨93, _⟩ => ⟨S1x32, .f32⟩
  | .hbm, ⟨94, _⟩ => ⟨S2097152x32, .f32⟩
  | .hbm, ⟨95, _⟩ => ⟨S2097152x32, .f32⟩
  | .hbm, ⟨96, _⟩ => ⟨S_, .f32⟩
  | .hbm, ⟨97, _⟩ => ⟨S2097152x32, .f32⟩
  | .hbm, ⟨98, _⟩ => ⟨S2097152x32, .f32⟩
  | .hbm, ⟨99, _⟩ => ⟨S1x32x32, .f32⟩
  | .hbm, ⟨100, _⟩ => ⟨S32x32, .f32⟩
  | .hbm, ⟨101, _⟩ => ⟨S32x32, .f32⟩
  | .hbm, ⟨102, _⟩ => ⟨S2097152x32, .f32⟩
  | .hbm, ⟨103, _⟩ => ⟨S1x32, .f32⟩
  | .hbm, ⟨104, _⟩ => ⟨S32, .f32⟩
  | .hbm, ⟨105, _⟩ => ⟨S1x32, .f32⟩
  | .hbm, ⟨106, _⟩ => ⟨S2097152x32, .f32⟩
  | .hbm, ⟨107, _⟩ => ⟨S2097152x32, .f32⟩
  | .hbm, ⟨108, _⟩ => ⟨S_, .f32⟩
  | .hbm, ⟨109, _⟩ => ⟨S2097152x32, .f32⟩
  | .hbm, ⟨110, _⟩ => ⟨S2097152x32, .f32⟩
  | .hbm, ⟨111, _⟩ => ⟨S32x1, .f32⟩
  | .hbm, ⟨112, _⟩ => ⟨S2097152x1, .f32⟩
  | .hbm, ⟨113, _⟩ => ⟨S1x1, .f32⟩
  | .hbm, ⟨114, _⟩ => ⟨S2097152x1, .f32⟩
  | .hbm, ⟨115, _⟩ => ⟨S2097152x1, .f32⟩
  | _, _ => ⟨S2097152x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call1_cst : Ref sig .tc := ⟨.hbm, 24, rfl⟩
abbrev main_call1_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call2_cst : Ref sig .tc := ⟨.hbm, 36, rfl⟩
abbrev main_call2_v0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call3_cst : Ref sig .tc := ⟨.hbm, 48, rfl⟩
abbrev main_call3_v0 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call4_cst : Ref sig .tc := ⟨.hbm, 60, rfl⟩
abbrev main_call4_v0 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_call5_cst : Ref sig .tc := ⟨.hbm, 72, rfl⟩
abbrev main_call5_v0 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_call6_cst : Ref sig .tc := ⟨.hbm, 84, rfl⟩
abbrev main_call6_v0 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_call7_cst : Ref sig .tc := ⟨.hbm, 96, rfl⟩
abbrev main_call7_v0 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_call8_cst : Ref sig .tc := ⟨.hbm, 108, rfl⟩
abbrev main_call8_v0 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩

abbrev nD : Nat := 1
abbrev τ : Topo := Topo.v7x

variable {F : FTy → Type} [FloatOps F]

class Facts₀ : Prop where
  transposes_S32x2_S2x32_1_0 : S32x2.Transposes [1, 0] S2x32
  bcast_S32_S1x32_1 : S32.BroadcastsInDim S1x32 (![1] : Fin 1 → Fin S1x32.rank)
  bcast_S1x32_S2097152x32_0_1 : S1x32.BroadcastsInDim S2097152x32 (![0, 1] : Fin 2 → Fin S2097152x32.rank)
  bcast_S_S2097152x32 : S_.BroadcastsInDim S2097152x32 (![] : Fin 0 → Fin S2097152x32.rank)
  slices_S8x32x32_S1x32x32_0_0_0 : S8x32x32.Slices ![0, 0, 0] S1x32x32
  shapeCasts_S1x32x32_S32x32 : S1x32x32.ShapeCasts S32x32
  transposes_S32x32_S32x32_1_0 : S32x32.Transposes [1, 0] S32x32
  slices_S8x32_S1x32_0_0 : S8x32.Slices ![0, 0] S1x32
  shapeCasts_S1x32_S32 : S1x32.ShapeCasts S32
  slices_S8x32x32_S1x32x32_1_0_0 : S8x32x32.Slices ![1, 0, 0] S1x32x32
  slices_S8x32_S1x32_1_0 : S8x32.Slices ![1, 0] S1x32
  slices_S8x32x32_S1x32x32_2_0_0 : S8x32x32.Slices ![2, 0, 0] S1x32x32
  slices_S8x32_S1x32_2_0 : S8x32.Slices ![2, 0] S1x32
  slices_S8x32x32_S1x32x32_3_0_0 : S8x32x32.Slices ![3, 0, 0] S1x32x32
  slices_S8x32_S1x32_3_0 : S8x32.Slices ![3, 0] S1x32
  slices_S8x32x32_S1x32x32_4_0_0 : S8x32x32.Slices ![4, 0, 0] S1x32x32
  slices_S8x32_S1x32_4_0 : S8x32.Slices ![4, 0] S1x32
  slices_S8x32x32_S1x32x32_5_0_0 : S8x32x32.Slices ![5, 0, 0] S1x32x32
  slices_S8x32_S1x32_5_0 : S8x32.Slices ![5, 0] S1x32
  slices_S8x32x32_S1x32x32_6_0_0 : S8x32x32.Slices ![6, 0, 0] S1x32x32
  slices_S8x32_S1x32_6_0 : S8x32.Slices ![6, 0] S1x32
  slices_S8x32x32_S1x32x32_7_0_0 : S8x32x32.Slices ![7, 0, 0] S1x32x32
  slices_S8x32_S1x32_7_0 : S8x32.Slices ![7, 0] S1x32
  transposes_S1x32_S32x1_1_0 : S1x32.Transposes [1, 0] S32x1
  bcast_S1_S1x1_1 : S1.BroadcastsInDim S1x1 (![1] : Fin 1 → Fin S1x1.rank)
  bcast_S1x1_S2097152x1_0_1 : S1x1.BroadcastsInDim S2097152x1 (![0, 1] : Fin 2 → Fin S2097152x1.rank)
  dot_S2097152x2_S2x32_S2097152x32_1_0_0_1_n_n_wf : DotDims.WF S2097152x2 S2x32 S2097152x32 [1] [0] [0] [1] [] []
  dot_S2097152x32_S32x32_S2097152x32_1_0_0_1_n_n_wf : DotDims.WF S2097152x32 S32x32 S2097152x32 [1] [0] [0] [1] [] []
  dot_S2097152x32_S32x1_S2097152x1_1_0_0_1_n_n_wf : DotDims.WF S2097152x32 S32x1 S2097152x1 [1] [0] [0] [1] [] []

variable [Facts₀]

def dot_S2097152x2_S2x32_S2097152x32_1_0_0_1_n_n : DotDims S2097152x2 S2x32 S2097152x32 where
  lhsContracting := [1]
  rhsContracting := [0]
  lhsNonContracting := [0]
  rhsNonContracting := [1]
  lhsBatch := []
  rhsBatch := []
  wf := dot_S2097152x2_S2x32_S2097152x32_1_0_0_1_n_n_wf
def dot_S2097152x32_S32x32_S2097152x32_1_0_0_1_n_n : DotDims S2097152x32 S32x32 S2097152x32 where
  lhsContracting := [1]
  rhsContracting := [0]
  lhsNonContracting := [0]
  rhsNonContracting := [1]
  lhsBatch := []
  rhsBatch := []
  wf := dot_S2097152x32_S32x32_S2097152x32_1_0_0_1_n_n_wf
def dot_S2097152x32_S32x1_S2097152x1_1_0_0_1_n_n : DotDims S2097152x32 S32x1 S2097152x1 where
  lhsContracting := [1]
  rhsContracting := [0]
  lhsNonContracting := [0]
  rhsNonContracting := [1]
  lhsBatch := []
  rhsBatch := []
  wf := dot_S2097152x32_S32x1_S2097152x1_1_0_0_1_n_n_wf

class Facts : Prop extends Facts₀ where

variable [Facts]
-- ==== Proof.LibDotRows.lean ====
import Idealize.ShloMosaic.PureOps.Ideal.Laws
import Idealize.ShloMosaic.Lib.ValueIdx

/-!
# A rows-by-columns contraction read at an index

For a product of an `R × K` array with a `K × J` array (one contracted axis, no batch axis: the left operand's
axis 1 against the right operand's axis 0) the sum over the contraction index at output position `(p, j)` is the
plain sum over `k : Fin K` of `a (p, k) * b (k, j)`. Stated once for every extent, and then for the two
operations that are this sum over the extended reals: a matrix product accumulated into the zero splat, and a
`dot_general`.
-/

noncomputable section

namespace Cert.Lib.DotRows

open Idealize.ShloMosaic Idealize.ShloMosaic.ValueIdx

variable {R K J : ℕ}

/-- The contraction index of a rows-by-columns product is the one coordinate `k`: the left operand is read at
    `(p, k)`, the right at `(k, j)`. -/
theorem contr_sum (d : DotDims ⟨2, ![R, K]⟩ ⟨2, ![K, J]⟩ ⟨2, ![R, J]⟩)
    (h1 : d.lhsContracting = [1]) (h2 : d.rhsContracting = [0]) (h3 : d.lhsNonContracting = [0])
    (h4 : d.rhsNonContracting = [1]) (h5 : d.lhsBatch = []) (h6 : d.rhsBatch = [])
    (a : (⟨2, ![R, K]⟩ : Shape).Idx → EReal) (b : (⟨2, ![K, J]⟩ : Shape).Idx → EReal) (p : Fin R) (j : Fin J) :
    ∑ q : d.contr.Idx, a (d.lhsIdx (ix2 p j) q) * b (d.rhsIdx (ix2 p j) q) = ∑ k : Fin K, a (ix2 p k) * b (ix2 k j) := by
  obtain ⟨lc, rc, ln, rn, lb, rb, wf⟩ := d
  dsimp only at h1 h2 h3 h4 h5 h6
  subst h1 h2 h3 h4 h5 h6
  rw [← Equiv.sum_comp (contrEquiv1 _ K rfl rfl).symm]
  refine Finset.sum_congr rfl fun k _ => ?_
  have hk := contrEquiv1_symm_val (⟨[1], [0], [0], [1], [], [], wf⟩ : DotDims ⟨2, ![R, K]⟩ ⟨2, ![K, J]⟩ ⟨2, ![R, J]⟩) K rfl rfl k
  have el : (⟨[1], [0], [0], [1], [], [], wf⟩ : DotDims ⟨2, ![R, K]⟩ ⟨2, ![K, J]⟩ ⟨2, ![R, J]⟩).lhsIdx (ix2 p j)
      ((contrEquiv1 _ K rfl rfl).symm k) = ix2 p k := funext fun x => Fin.ext (by
    match x with
    | ⟨0, _⟩ => rfl
    | ⟨1, _⟩ => exact (rfl : _ = _).trans hk)
  have er : (⟨[1], [0], [0], [1], [], [], wf⟩ : DotDims ⟨2, ![R, K]⟩ ⟨2, ![K, J]⟩ ⟨2, ![R, J]⟩).rhsIdx (ix2 p j)
      ((contrEquiv1 _ K rfl rfl).symm k) = ix2 k j := funext fun x => Fin.ext (by
    match x with
    | ⟨0, _⟩ => exact (rfl : _ = _).trans hk
    | ⟨1, _⟩ => rfl)
  rw [el, er]

/-- A matrix product into the zero accumulator, over the extended reals, at `(p, j)`: the sum over `k`. -/
theorem matmul_rows {φ₁ φ₂ : FTy} (d : DotDims ⟨2, ![R, K]⟩ ⟨2, ![K, J]⟩ ⟨2, ![R, J]⟩)
    (h1 : d.lhsContracting = [1]) (h2 : d.rhsContracting = [0]) (h3 : d.lhsNonContracting = [0])
    (h4 : d.rhsNonContracting = [1]) (h5 : d.lhsBatch = []) (h6 : d.rhsBatch = []) (prec : Option ContractPrecision)
    (a : FVec Ideal ⟨2, ![R, K]⟩ φ₁) (b : FVec Ideal ⟨2, ![K, J]⟩ φ₂) (p : Fin R) (j : Fin J) :
    FloatOps.matmul d prec a b (constant ⟨2, ![R, J]⟩ .f32 0x00000000#32) (ix2 p j) = ∑ k : Fin K, a (ix2 p k) * b (ix2 k j) :=
  (Ideal.matmul_constant_zero_apply d prec a b (ix2 p j)).trans (contr_sum d h1 h2 h3 h4 h5 h6 a b p j)

/-- A `dot_general` of the same dimension numbers, over the extended reals, at `(p, j)`: the same sum. -/
theorem dotGeneral_rows {φ₁ φ₂ : FTy} (d : DotDims ⟨2, ![R, K]⟩ ⟨2, ![K, J]⟩ ⟨2, ![R, J]⟩)
    (h1 : d.lhsContracting = [1]) (h2 : d.rhsContracting = [0]) (h3 : d.lhsNonContracting = [0])
    (h4 : d.rhsNonContracting = [1]) (h5 : d.lhsBatch = []) (h6 : d.rhsBatch = []) (prec : Option ContractPrecision)
    (sched : HostSchedule) (a : FVec Ideal ⟨2, ![R, K]⟩ φ₁) (b : FVec Ideal ⟨2, ![K, J]⟩ φ₂) (p : Fin R) (j : Fin J) :
    FloatOps.dotGeneral d prec sched a b (ix2 p j) = ∑ k : Fin K, a (ix2 p k) * b (ix2 k j) :=
  (Ideal.dotGeneral_apply d prec sched a b (ix2 p j)).trans (contr_sum d h1 h2 h3 h4 h5 h6 a b p j)

end Cert.Lib.DotRows

end
-- ==== Proof.Net.lean ====
import Idealize.ShloMosaic.PureOps.Ideal
import Idealize.ShloMosaic.Lib.ValueIdx

/-!
# The network, one row at a time

Both programs compute, for each of the 2097152 rows `x = (x₀, x₁)` of the input, the same composition over the
extended reals: an affine map `ℝ² → ℝ³²` followed by the rectifier, eight affine maps `ℝ³² → ℝ³²` each followed by
the rectifier, and a last affine map `ℝ³² → ℝ`. An affine map sends a row `h` to `j ↦ ∑ₖ h k · W j k + b j` (the
weight matrix is used transposed: its row `j` is contracted with `h`); the rectifier replaces each entry by the larger
of that entry and zero, the zero being the value of the all-zero f32 word.
-/

noncomputable section

namespace Cert.Net

open Idealize.ShloMosaic Idealize.ShloMosaic.ValueIdx

/-- The affine map with weights `W` (row `j` contracted with the argument) and bias `b`. -/
def affine {K J : ℕ} (W : Fin J → Fin K → EReal) (b : Fin J → EReal) (h : Fin K → EReal) : Fin J → EReal :=
  fun j => (∑ k : Fin K, h k * W j k) + b j

/-- The rectifier, entry by entry. -/
def relu {J : ℕ} (v : Fin J → EReal) : Fin J → EReal :=
  fun j => max (v j) (Ideal.ofBits .f32 0x00000000#32)

/-- An affine map followed by the rectifier. -/
def dense {K J : ℕ} (W : Fin J → Fin K → EReal) (b : Fin J → EReal) (h : Fin K → EReal) : Fin J → EReal :=
  relu (affine W b h)

/-- The whole network on one row `x`: input layer `(W0, b0)`, hidden layers `(Wh l, bh l)` for `l = 0, …, 7` in that
    order, output layer `(Wo, bo)`. -/
def mlp (W0 : Fin 32 → Fin 2 → EReal) (b0 : Fin 32 → EReal) (Wh : Fin 8 → Fin 32 → Fin 32 → EReal)
    (bh : Fin 8 → Fin 32 → EReal) (Wo : Fin 1 → Fin 32 → EReal) (bo : Fin 1 → EReal) (x : Fin 2 → EReal) : Fin 1 → EReal :=
  affine Wo bo (dense (Wh 7) (bh 7) (dense (Wh 6) (bh 6) (dense (Wh 5) (bh 5) (dense (Wh 4) (bh 4)
    (dense (Wh 3) (bh 3) (dense (Wh 2) (bh 2) (dense (Wh 1) (bh 1) (dense (Wh 0) (bh 0) (dense W0 b0 x)))))))))

/-- THE OUTPUT ARRAY as one function of the seven argument arrays: at `(n, j)` the network of row `n` of `X`, its
    weights and biases the entries of the other six arrays. -/
def out (X : (⟨2, ![2097152, 2]⟩ : Shape).Idx → EReal) (W0 : (⟨2, ![32, 2]⟩ : Shape).Idx → EReal)
    (b0 : (⟨1, ![32]⟩ : Shape).Idx → EReal) (Wh : (⟨3, ![8, 32, 32]⟩ : Shape).Idx → EReal)
    (bh : (⟨2, ![8, 32]⟩ : Shape).Idx → EReal) (Wo : (⟨2, ![1, 32]⟩ : Shape).Idx → EReal)
    (bo : (⟨1, ![1]⟩ : Shape).Idx → EReal) : (⟨2, ![2097152, 1]⟩ : Shape).Idx → EReal :=
  fun i => mlp (fun j k => W0 (ix2 j k)) (fun j => b0 (ix1 j)) (fun l j k => Wh (ix3 l j k)) (fun l j => bh (ix2 l j))
    (fun j k => Wo (ix2 j k)) (fun j => bo (ix1 j))
    (fun k => X (ix2 (⟨(i 0).val, (i 0).isLt⟩ : Fin 2097152) k)) (⟨(i 1).val, (i 1).isLt⟩ : Fin 1)

/-- The output array at `(n, j)`. -/
theorem out_apply (X : (⟨2, ![2097152, 2]⟩ : Shape).Idx → EReal) (W0 : (⟨2, ![32, 2]⟩ : Shape).Idx → EReal)
    (b0 : (⟨1, ![32]⟩ : Shape).Idx → EReal) (Wh : (⟨3, ![8, 32, 32]⟩ : Shape).Idx → EReal)
    (bh : (⟨2, ![8, 32]⟩ : Shape).Idx → EReal) (Wo : (⟨2, ![1, 32]⟩ : Shape).Idx → EReal)
    (bo : (⟨1, ![1]⟩ : Shape).Idx → EReal) (n : Fin 2097152) (j : Fin 1) :
    out X W0 b0 Wh bh Wo bo (ix2 n j)
      = mlp (fun j k => W0 (ix2 j k)) (fun j => b0 (ix1 j)) (fun l j k => Wh (ix3 l j k)) (fun l j => bh (ix2 l j))
          (fun j k => Wo (ix2 j k)) (fun j => bo (ix1 j)) (fun k => X (ix2 n k)) j := rfl

end Cert.Net

end
-- ==== Proof.KernelLayers.lean ====
import proofs.«105209_j82188494176671_1_alg».proof.Proof.Gen.KernelIdeal.Skeleton
import proofs.«105209_j82188494176671_1_alg».proof.Proof.LibDotRows
import proofs.«105209_j82188494176671_1_alg».proof.Proof.Net
import Idealize.ShloMosaic.Lib.Pipeline.Value
import Idealize.ShloMosaic.Lib.ValueIdx
import Idealize.ShloMosaic.PureOps.Ideal.Laws

/-!
# The kernel's layers, read at an index

The body's arithmetic is ten layers on an 8192-row block. Each layer is named here as the printed operations of its
operands, the body's four payload terms are shown to be compositions of these layers, and each layer is read over the
extended reals at a position `(p, j)` of the block: row `p` of the result is the row-wise layer (`Cert.Net`) of row
`p` of the operand. The changes of float format are the identity there, the matrix product into the zero splat is a
plain sum over the contracted coordinate, the transposed weight matrix is read with its coordinates exchanged, and the
bias, broadcast along the rows, is read at the column.
-/

noncomputable section

namespace Cert.KernelIdeal.Layers

open Cert.KernelIdeal Cert.KernelIdeal.Gen Idealize.ShloMosaic Idealize.ShloMosaic.ValueIdx Idealize.SL.Sem

variable {F : FTy → Type} [FloatOps F]

/-- The input layer on a block of rows: `x · W0ᵀ + b0`, rectified. -/
def first (x : Vec F S8192x2 .f32) (w : Vec F S32x2 .f32) (b : Vec F S32 .f32) : FVec F S8192x32 .f32 :=
  maximumf (addf (matmul dot_S8192x2_S2x32_S8192x32_1_0_0_1_n_n none (truncf .bf16 x bitsLt_bf16_f32)
      (transpose S2x32 [1, 0] (truncf .bf16 w bitsLt_bf16_f32) transposes_S32x2_p1_0_S2x32)
      (constant S8192x32 .f32 0x00000000#32))
    (broadcastTo S8192x32 (shapeCast S1x32 b shapeCasts_S32_S1x32) broadcasts_S1x32_S8192x32))
    (broadcast S8192x32 (Scalar.ofBits .f32 0x00000000#32))

/-- A hidden layer on a block of rows, its weights a loaded `1 × 32 × 32` slab and its bias a loaded `1 × 32` row:
    `h · Wᵀ + b`, rectified. -/
def hidden (h : FVec F S8192x32 .f32) (w : Vec F S1x32x32 .f32) (b : Vec F S1x32 .f32) : FVec F S8192x32 .f32 :=
  maximumf (addf (matmul dot_S8192x32_S32x32_S8192x32_1_0_0_1_n_n none (truncf .bf16 h bitsLt_bf16_f32)
      (transpose S32x32 [1, 0] (truncf .bf16 (shapeCast S32x32 w shapeCasts_S1x32x32_S32x32) bitsLt_bf16_f32) transposes_S32x32_p1_0_S32x32)
      (constant S8192x32 .f32 0x00000000#32))
    (broadcastTo S8192x32 (shapeCast S1x32 (shapeCast S32 b shapeCasts_S1x32_S32) shapeCasts_S32_S1x32) broadcasts_S1x32_S8192x32))
    (broadcast S8192x32 (Scalar.ofBits .f32 0x00000000#32))

/-- The first payload is the input layer and the first two hidden layers. -/
theorem k0_pay2_eq (v0 : Vec F S8192x2 .f32) (v2 : Vec F S32x2 .f32) (v6 : Vec F S32 .f32) (v12 : Vec F S1x32x32 .f32)
    (v15 : Vec F S1x32 .f32) (v25 : Vec F S1x32x32 .f32) (v28 : Vec F S1x32 .f32) :
    k0_pay2 v0 v2 v6 v12 v15 v25 v28 = hidden (hidden (first v0 v2 v6) v12 v15) v25 v28 := rfl

/-- The second payload is the next three hidden layers. -/
theorem k0_pay3_eq (v37 : FVec F S8192x32 .f32) (v38 : Vec F S1x32x32 .f32) (v41 : Vec F S1x32 .f32) (v51 : Vec F S1x32x32 .f32)
    (v54 : Vec F S1x32 .f32) (v64 : Vec F S1x32x32 .f32) (v67 : Vec F S1x32 .f32) :
    k0_pay3 v37 v38 v41 v51 v54 v64 v67 = hidden (hidden (hidden v37 v38 v41) v51 v54) v64 v67 := rfl

/-- The third payload is the last three hidden layers. -/
theorem k0_pay4_eq (v76 : FVec F S8192x32 .f32) (v77 : Vec F S1x32x32 .f32) (v80 : Vec F S1x32 .f32) (v90 : Vec F S1x32x32 .f32)
    (v93 : Vec F S1x32 .f32) (v103 : Vec F S1x32x32 .f32) (v106 : Vec F S1x32 .f32) :
    k0_pay4 v76 v77 v80 v90 v93 v103 v106 = hidden (hidden (hidden v76 v77 v80) v90 v93) v103 v106 := rfl

/-- Row `p` of the input layer's result is the row-wise layer of row `p` of the block. -/
theorem first_row (x : Vec Ideal S8192x2 .f32) (w : Vec Ideal S32x2 .f32) (b : Vec Ideal S32 .f32) (p : Fin 8192) :
    (fun j : Fin 32 => first (F := Ideal) x w b (ix2 p j))
      = Cert.Net.dense (fun j k => w (ix2 j k)) (fun j => b (ix1 j)) (fun k => x (ix2 p k)) := by
  funext j
  unfold first Cert.Net.dense Cert.Net.relu Cert.Net.affine
  rw [maximumf_apply, addf_apply, broadcast_apply]
  refine congrArg₂ max (congrArg₂ (· + ·) ?_ ?_) rfl
  · refine (Cert.Lib.DotRows.matmul_rows dot_S8192x2_S2x32_S8192x32_1_0_0_1_n_n rfl rfl rfl rfl rfl rfl none _ _ p j).trans ?_
    refine Finset.sum_congr rfl fun k _ => congrArg (x (ix2 p k) * ·) ?_
    exact transpose_apply [1, 0] _ transposes_S32x2_p1_0_S2x32 (ix2 k j) (ix2 j k) (fun a => match a with
      | ⟨0, _⟩ => rfl
      | ⟨1, _⟩ => rfl)
  · refine (broadcastTo_apply _ broadcasts_S1x32_S8192x32 (ix2 p j) (ix2 0 j) (fun a => match a with
      | ⟨0, _⟩ => rfl
      | ⟨1, _⟩ => rfl)).trans ?_
    exact shapeCast_apply b shapeCasts_S32_S1x32 (ix2 0 j) (ix1 j) (by
      rw [Shape.rowMajor_val_one, Shape.rowMajor_val_two]
      show j.val = 0 * 32 + j.val
      omega)

/-- Row `p` of a hidden layer's result is the row-wise layer of row `p` of its operand, with the slab's matrix and
    the bias row read at their one leading position. -/
theorem hidden_row (h : FVec Ideal S8192x32 .f32) (w : Vec Ideal S1x32x32 .f32) (b : Vec Ideal S1x32 .f32) (p : Fin 8192) :
    (fun j : Fin 32 => hidden (F := Ideal) h w b (ix2 p j))
      = Cert.Net.dense (fun j k => w (ix3 0 j k)) (fun j => b (ix2 0 j)) (fun k => h (ix2 p k)) := by
  funext j
  unfold hidden Cert.Net.dense Cert.Net.relu Cert.Net.affine
  rw [maximumf_apply, addf_apply, broadcast_apply]
  refine congrArg₂ max (congrArg₂ (· + ·) ?_ ?_) rfl
  · refine (Cert.Lib.DotRows.matmul_rows dot_S8192x32_S32x32_S8192x32_1_0_0_1_n_n rfl rfl rfl rfl rfl rfl none _ _ p j).trans ?_
    refine Finset.sum_congr rfl fun k _ => congrArg (h (ix2 p k) * ·) ?_
    refine (transpose_apply [1, 0] _ transposes_S32x32_p1_0_S32x32 (ix2 k j) (ix2 j k) (fun a => match a with
      | ⟨0, _⟩ => rfl
      | ⟨1, _⟩ => rfl)).trans ?_
    exact shapeCast_apply w shapeCasts_S1x32x32_S32x32 (ix2 j k) (ix3 0 j k) (by
      rw [Shape.rowMajor_val_three, Shape.rowMajor_val_two]
      show (0 * 32 + j.val) * 32 + k.val = j.val * 32 + k.val
      omega)
  · rw [shapeCast_shapeCast]
    exact broadcastTo_apply b broadcasts_S1x32_S8192x32 (ix2 p j) (ix2 0 j) (fun a => match a with
      | ⟨0, _⟩ => rfl
      | ⟨1, _⟩ => rfl)

/-- Row `p` of the output layer's result (the payload the body stores) is the affine map of row `p` of its operand:
    no rectifier. -/
theorem last_row (h : FVec Ideal S8192x32 .f32) (w : Vec Ideal S1x32 .f32) (b : Vec Ideal S1 .f32) (p : Fin 8192) :
    (fun j : Fin 1 => k0_pay1 (F := Ideal) h w b (ix2 p j))
      = Cert.Net.affine (fun j k => w (ix2 j k)) (fun j => b (ix1 j)) (fun k => h (ix2 p k)) := by
  funext j
  unfold k0_pay1 Cert.Net.affine
  rw [addf_apply]
  refine congrArg₂ (· + ·) ?_ ?_
  · refine (Cert.Lib.DotRows.matmul_rows dot_S8192x32_S32x1_S8192x1_1_0_0_1_n_n rfl rfl rfl rfl rfl rfl none _ _ p j).trans ?_
    refine Finset.sum_congr rfl fun k _ => congrArg (h (ix2 p k) * ·) ?_
    exact transpose_apply [1, 0] _ transposes_S1x32_p1_0_S32x1 (ix2 k j) (ix2 j k) (fun a => match a with
      | ⟨0, _⟩ => rfl
      | ⟨1, _⟩ => rfl)
  · have hj : j.val = 0 := by have := j.isLt; omega
    refine (broadcastTo_apply _ broadcasts_S1x1_S8192x1 (ix2 p j) (ix2 (0 : Fin 1) (0 : Fin 1)) (fun a => match a with
      | ⟨0, _⟩ => rfl
      | ⟨1, _⟩ => rfl)).trans ?_
    exact shapeCast_apply b shapeCasts_S1_S1x1 (ix2 (0 : Fin 1) (0 : Fin 1)) (ix1 j) (by
      rw [Shape.rowMajor_val_one, Shape.rowMajor_val_two]
      show j.val = 0 * 1 + 0
      omega)

/-- THE BODY'S STORED VALUE, row by row: the composition of the four payloads, of a block of rows `x`, the input
    layer's weights and bias, eight loaded weight slabs and bias rows, and the output layer's weights and bias, has
    at row `p` the network of row `p` of `x`. -/
theorem body_row (x : Vec Ideal S8192x2 .f32) (w0 : Vec Ideal S32x2 .f32) (b0 : Vec Ideal S32 .f32)
    (w : Fin 8 → Vec Ideal S1x32x32 .f32) (b : Fin 8 → Vec Ideal S1x32 .f32) (wo : Vec Ideal S1x32 .f32) (bo : Vec Ideal S1 .f32)
    (p : Fin 8192) :
    (fun j : Fin 1 => k0_pay1 (F := Ideal) (k0_pay4 (k0_pay3 (k0_pay2 x w0 b0 (w 0) (b 0) (w 1) (b 1))
        (w 2) (b 2) (w 3) (b 3) (w 4) (b 4)) (w 5) (b 5) (w 6) (b 6) (w 7) (b 7)) wo bo (ix2 p j))
      = Cert.Net.mlp (fun j k => w0 (ix2 j k)) (fun j => b0 (ix1 j)) (fun l j k => w l (ix3 0 j k)) (fun l j => b l (ix2 0 j))
          (fun j k => wo (ix2 j k)) (fun j => bo (ix1 j)) (fun k => x (ix2 p k)) := by
  rw [k0_pay4_eq, k0_pay3_eq, k0_pay2_eq]
  unfold Cert.Net.mlp
  rw [last_row, hidden_row, hidden_row, hidden_row, hidden_row, hidden_row, hidden_row, hidden_row, hidden_row, first_row]

end Cert.KernelIdeal.Layers

end
-- ==== Proof.KernelArray.lean ====
import proofs.«105209_j82188494176671_1_alg».proof.Proof.Gen.KernelIdeal.Value
import proofs.«105209_j82188494176671_1_alg».proof.Proof.KernelLayers
import Idealize.ShloMosaic.Lib.Pipeline.Value

/-!
# The kernel's result array

Grid point `t` (of 256) stages rows `8192·t … 8192·t + 8191` of the input, the six weight and bias arrays whole, and
writes back rows `8192·t … 8192·t + 8191` of the one-column result. What it stores at row `p` of its block is the
network (`Cert.Net.mlp`) of row `p` of the staged input block, with the staged arrays' entries as weights: hidden layer
`l` loads slab `l` of the stacked weights and row `l` of the stacked biases. So each point writes back its block of
ONE function of the argument arrays, `Cert.Net.out`; the 256 blocks tile the result array, which therefore ends
holding that function.
-/

noncomputable section

namespace Cert.KernelIdeal.Array

open Cert.KernelIdeal Cert.KernelIdeal.Gen Cert.KernelIdeal.Value Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl

/-! ## The loads of one hidden layer's weights and bias -/

/-- The rectangle hidden layer `l` loads its weights through: slab `l` of the stacked array. -/
abbrev wslab (l : Fin 8) : Rect S8x32x32 :=
  Rect.unit (s := S8x32x32) ![l.val, 0, 0] S1x32x32.size (fun a => match a with
    | ⟨0, _⟩ => by show l.val + 1 ≤ 8; omega
    | ⟨1, _⟩ => by show 0 + 32 ≤ 32; omega
    | ⟨2, _⟩ => by show 0 + 32 ≤ 32; omega)

/-- The rectangle hidden layer `l` loads its bias through: row `l` of the stacked array. -/
abbrev bslab (l : Fin 8) : Rect S8x32 :=
  Rect.unit (s := S8x32) ![l.val, 0] S1x32.size (fun a => match a with
    | ⟨0, _⟩ => by show l.val + 1 ≤ 8; omega
    | ⟨1, _⟩ => by show 0 + 32 ≤ 32; omega)

/-- The loaded slab at `(0, j, k)` is the stacked array at `(l, j, k)`. -/
theorem wslab_ld (X : Vec Ideal S8x32x32 .f32) (l : Fin 8) (j k : Fin 32) :
    View.ld X (wslab l) (ix3 0 j k) = X (ix3 l j k) :=
  congrArg X (funext fun a => Fin.ext (match a with
    | ⟨0, _⟩ => by show l.val + 1 * 0 = l.val; omega
    | ⟨1, _⟩ => by show 0 + 1 * j.val = j.val; omega
    | ⟨2, _⟩ => by show 0 + 1 * k.val = k.val; omega))

/-- The loaded bias row at `(0, j)` is the stacked array at `(l, j)`. -/
theorem bslab_ld (X : Vec Ideal S8x32 .f32) (l : Fin 8) (j : Fin 32) :
    View.ld X (bslab l) (ix2 0 j) = X (ix2 l j) :=
  congrArg X (funext fun a => Fin.ext (match a with
    | ⟨0, _⟩ => by show l.val + 1 * 0 = l.val; omega
    | ⟨1, _⟩ => by show 0 + 1 * j.val = j.val; omega))

/-! ## What the body leaves in the output's staging buffer, row by row -/

/-- Row `p` of the stored block is the network of row `p` of the staged input block, with the staged arrays' entries
    as weights and biases. -/
theorem out_row (x0 : Vec Ideal S8192x2 .f32) (x1 : Vec Ideal S32x2 .f32) (x2 : Vec Ideal S32 .f32) (x3 : Vec Ideal S8x32x32 .f32)
    (x4 : Vec Ideal S8x32 .f32) (x5 : Vec Ideal S1x32 .f32) (x6 : Vec Ideal S1 .f32) (p : Fin 8192) :
    (fun j : Fin 1 => out0_7 (F := Ideal) x0 x1 x2 x3 x4 x5 x6 (ix2 p j))
      = Cert.Net.mlp (fun j k => x1 (ix2 j k)) (fun j => x2 (ix1 j)) (fun l j k => x3 (ix3 l j k)) (fun l j => x4 (ix2 l j))
          (fun j k => x5 (ix2 j k)) (fun j => x6 (ix1 j)) (fun k => x0 (ix2 p k)) := by
  unfold out0_7
  rw [View.canon_unit_zero hz2]
  simp only [View.ld_unit_zero (S := S8192x2) hz2, View.ld_unit_zero (S := S32x2) hz2, View.ld_unit_zero (S := S32) hz1,
    View.ld_unit_zero (S := S1x32) hz2, View.ld_unit_zero (S := S1) hz1]
  have hw : (fun (l : Fin 8) (j k : Fin 32) => View.ld x3 (wslab l) (ix3 0 j k)) = fun l j k => x3 (ix3 l j k) :=
    funext fun l => funext fun j => funext fun k => wslab_ld x3 l j k
  have hb : (fun (l : Fin 8) (j : Fin 32) => View.ld x4 (bslab l) (ix2 0 j)) = fun l j => x4 (ix2 l j) :=
    funext fun l => funext fun j => bslab_ld x4 l j
  refine (Cert.KernelIdeal.Layers.body_row x0 x1 x2 (fun l => View.ld x3 (wslab l)) (fun l => View.ld x4 (bslab l)) x5 x6 p).trans ?_
  exact congrArg₂ (fun Wh bh => Cert.Net.mlp (fun j k => x1 (ix2 j k)) (fun j => x2 (ix1 j)) Wh bh
    (fun j k => x5 (ix2 j k)) (fun j => x6 (ix1 j)) (fun k => x0 (ix2 p k))) hw hb

/-! ## The windows' blocks as rows of their arrays -/

/-- The printed index maps, decided over the 256 points: the input's and the result's block index on the row axis is
    the point's number, every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- The row of the arrays that row `p` of point `t`'s block is. -/
def row (t : Fin cfg0.N) (p : Fin 8192) : Fin 2097152 :=
  ⟨t.val * 8192 + p.val, by
    have h : t.val < 256 := Nat.lt_of_lt_of_eq t.isLt (N_0 : cfg0.N = 256)
    have := p.isLt
    omega⟩

/-- The staged input block at `(p, k)` is the input at row `8192·t + p`. -/
theorem xblk_apply (c : Dev nD) (t : Fin cfg0.N) (p : Fin 8192) (k : Fin 2) :
    (iblk m c 0 t : Vec Ideal S8192x2 .f32) (ix2 p k) = (V m c main_arg0 : S2097152x2.Idx → Elt Ideal .f32) (ix2 (row t p) k) := by
  obtain ⟨h0, h1, -⟩ := idx_facts t
  unfold iblk
  rw [View.read_apply]
  show V m c main_arg0 _ = V m c main_arg0 _
  refine congrArg (V m c main_arg0 : S2097152x2.Idx → Elt Ideal .f32) (funext fun a => Fin.ext ?_)
  match a with
  | ⟨0, _⟩ => show win0_0.index t (0 : Fin 2) * 8192 + 1 * p.val = t.val * 8192 + p.val; rw [h0]; omega
  | ⟨1, _⟩ => show win0_0.index t (1 : Fin 2) * 2 + 1 * k.val = k.val; rw [h1]; omega

/-- The six whole-array windows stage their arrays. -/
theorem blk1_eq (c : Dev nD) (t : Fin cfg0.N) : (iblk m c 1 t : Vec Ideal S32x2 .f32) = (V m c main_arg1 : S32x2.Idx → Elt Ideal .f32) := by
  obtain ⟨-, -, h0, h1, -⟩ := idx_facts t
  funext y
  unfold iblk
  rw [View.read_apply]
  show V m c main_arg1 _ = V m c main_arg1 y
  refine congrArg (V m c main_arg1 : S32x2.Idx → Elt Ideal .f32) (funext fun a => Fin.ext ?_)
  match a with
  | ⟨0, _⟩ => show win0_1.index t (0 : Fin 2) * 32 + 1 * (y 0).val = (y 0).val; rw [h0]; omega
  | ⟨1, _⟩ => show win0_1.index t (1 : Fin 2) * 2 + 1 * (y 1).val = (y 1).val; rw [h1]; omega

theorem blk2_eq (c : Dev nD) (t : Fin cfg0.N) : (iblk m c 2 t : Vec Ideal S32 .f32) = (V m c main_arg2 : S32.Idx → Elt Ideal .f32) := by
  obtain ⟨-, -, -, -, h0, -⟩ := idx_facts t
  funext y
  unfold iblk
  rw [View.read_apply]
  show V m c main_arg2 _ = V m c main_arg2 y
  refine congrArg (V m c main_arg2 : S32.Idx → Elt Ideal .f32) (funext fun a => Fin.ext ?_)
  match a with
  | ⟨0, _⟩ => show win0_2.index t (0 : Fin 1) * 32 + 1 * (y 0).val = (y 0).val; rw [h0]; omega

theorem blk3_eq (c : Dev nD) (t : Fin cfg0.N) : (iblk m c 3 t : Vec Ideal S8x32x32 .f32) = (V m c main_arg3 : S8x32x32.Idx → Elt Ideal .f32) := by
  obtain ⟨-, -, -, -, -, h0, h1, h2, -⟩ := idx_facts t
  funext y
  unfold iblk
  rw [View.read_apply]
  show V m c main_arg3 _ = V m c main_arg3 y
  refine congrArg (V m c main_arg3 : S8x32x32.Idx → Elt Ideal .f32) (funext fun a => Fin.ext ?_)
  match a with
  | ⟨0, _⟩ => show win0_3.index t (0 : Fin 3) * 8 + 1 * (y 0).val = (y 0).val; rw [h0]; omega
  | ⟨1, _⟩ => show win0_3.index t (1 : Fin 3) * 32 + 1 * (y 1).val = (y 1).val; rw [h1]; omega
  | ⟨2, _⟩ => show win0_3.index t (2 : Fin 3) * 32 + 1 * (y 2).val = (y 2).val; rw [h2]; omega

theorem blk4_eq (c : Dev nD) (t : Fin cfg0.N) : (iblk m c 4 t : Vec Ideal S8x32 .f32) = (V m c main_arg4 : S8x32.Idx → Elt Ideal .f32) := by
  obtain ⟨-, -, -, -, -, -, -, -, h0, h1, -⟩ := idx_facts t
  funext y
  unfold iblk
  rw [View.read_apply]
  show V m c main_arg4 _ = V m c main_arg4 y
  refine congrArg (V m c main_arg4 : S8x32.Idx → Elt Ideal .f32) (funext fun a => Fin.ext ?_)
  match a with
  | ⟨0, _⟩ => show win0_4.index t (0 : Fin 2) * 8 + 1 * (y 0).val = (y 0).val; rw [h0]; omega
  | ⟨1, _⟩ => show win0_4.index t (1 : Fin 2) * 32 + 1 * (y 1).val = (y 1).val; rw [h1]; omega

theorem blk5_eq (c : Dev nD) (t : Fin cfg0.N) : (iblk m c 5 t : Vec Ideal S1x32 .f32) = (V m c main_arg5 : S1x32.Idx → Elt Ideal .f32) := by
  obtain ⟨-, -, -, -, -, -, -, -, -, -, h0, h1, -⟩ := idx_facts t
  funext y
  unfold iblk
  rw [View.read_apply]
  show V m c main_arg5 _ = V m c main_arg5 y
  refine congrArg (V m c main_arg5 : S1x32.Idx → Elt Ideal .f32) (funext fun a => Fin.ext ?_)
  match a with
  | ⟨0, _⟩ => show win0_5.index t (0 : Fin 2) * 1 + 1 * (y 0).val = (y 0).val; rw [h0]; omega
  | ⟨1, _⟩ => show win0_5.index t (1 : Fin 2) * 32 + 1 * (y 1).val = (y 1).val; rw [h1]; omega

theorem blk6_eq (c : Dev nD) (t : Fin cfg0.N) : (iblk m c 6 t : Vec Ideal S1 .f32) = (V m c main_arg6 : S1.Idx → Elt Ideal .f32) := by
  obtain ⟨-, -, -, -, -, -, -, -, -, -, -, -, h0, -⟩ := idx_facts t
  funext y
  unfold iblk
  rw [View.read_apply]
  show V m c main_arg6 _ = V m c main_arg6 y
  refine congrArg (V m c main_arg6 : S1.Idx → Elt Ideal .f32) (funext fun a => Fin.ext ?_)
  match a with
  | ⟨0, _⟩ => show win0_6.index t (0 : Fin 1) * 1 + 1 * (y 0).val = (y 0).val; rw [h0]; omega

/-- Position `(p, q)` of the result's block at point `t` is position `(8192·t + p, q)` of the result array. -/
theorem out_emb (t : Fin cfg0.N) (p : Fin 8192) (q : Fin 1) :
    ((cfg0.win 7).blk t).view.emb (ix2 p q) = (ix2 (row t p) q : S2097152x1.Idx) := by
  obtain ⟨-, -, -, -, -, -, -, -, -, -, -, -, -, h0, h1⟩ := idx_facts t
  funext a
  apply Fin.ext
  match a with
  | ⟨0, _⟩ => show win0_7.index t (0 : Fin 2) * 8192 + 1 * p.val = t.val * 8192 + p.val; rw [h0]; omega
  | ⟨1, _⟩ => show win0_7.index t (1 : Fin 2) * 1 + 1 * q.val = q.val; rw [h1]; omega

/-! ## The result array -/

/-- The result array: `Cert.Net.out` of the seven argument arrays as launched. -/
abbrev G (c : Dev nD) : Buf (Elt Ideal) ((c : Thread nD τ).loc main_v0) :=
  Cert.Net.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- WHAT POINT `t` WRITES BACK is block `t` of `G`. -/
theorem flushed_eq (c : Dev nD) (t : Fin cfg0.N) :
    (dats m 0 c).flushed 7 t = ((cfg0.win 7).blk t).view.read (Elt Ideal) (G m c) := by
  show (cfg0.win 7).cut (grid0.coords t) ((dats m 0 c).after 7 t) = _
  rw [after0_7]
  funext y
  obtain ⟨p, q, rfl⟩ : ∃ (p : Fin 8192) (q : Fin 1), y = ix2 p q := ⟨y 0, y 1, eq_ix2 y⟩
  show out0_7 (iblk m c 0 t) (iblk m c 1 t) (iblk m c 2 t) (iblk m c 3 t) (iblk m c 4 t) (iblk m c 5 t) (iblk m c 6 t) (ix2 p q)
    = G m c (((cfg0.win 7).blk t).view.emb (ix2 p q))
  rw [out_emb]
  refine (congrFun (out_row (iblk m c 0 t) (iblk m c 1 t) (iblk m c 2 t) (iblk m c 3 t) (iblk m c 4 t) (iblk m c 5 t) (iblk m c 6 t) p) q).trans ?_
  refine Eq.trans ?_ (Cert.Net.out_apply _ _ _ _ _ _ _ (row t p) q).symm
  simp only [xblk_apply, blk1_eq, blk2_eq, blk3_eq, blk4_eq, blk5_eq, blk6_eq]

/-- An index of the result array is in point `t`'s block iff each coordinate is in the block's range on its axis. -/
theorem mem_blk (t : Fin cfg0.N) (i : S2097152x1.Idx) :
    i ∈ ((cfg0.win 7).blk t).view.set ↔ ∀ a : Fin 2, win0_7.index t a * S8192x1.size a ≤ (i a).val
      ∧ (i a).val < win0_7.index t a * S8192x1.size a + S8192x1.size a := by
  show i ∈ ((View.whole main_v0).slice (win0_7.rect t)).set ↔ _
  rw [View.set_slice_whole, Rect.mem_set_unit]
  exact Iff.rfl

/-- Every index of the result array is in the block of the point its row falls in. -/
theorem cover (i : S2097152x1.Idx) : ∃ t : Fin cfg0.N, (cfg0.win 7).flush t = true ∧ i ∈ ((cfg0.win 7).blk t).view.set := by
  have hi0 : (i 0).val < 2097152 := (i 0).isLt
  have hi1 : (i 1).val < 1 := (i 1).isLt
  have ht : (i 0).val / 8192 < cfg0.N := by rw [show cfg0.N = 256 from N_0]; omega
  obtain ⟨-, -, -, -, -, -, -, -, -, -, -, -, -, h0, h1⟩ := idx_facts ⟨(i 0).val / 8192, ht⟩
  refine ⟨⟨(i 0).val / 8192, ht⟩, flush0_7 _, ?_⟩
  rw [mem_blk]
  intro a
  match a with
  | ⟨0, _⟩ =>
    show win0_7.index ⟨(i 0).val / 8192, ht⟩ (0 : Fin 2) * 8192 ≤ (i 0).val
      ∧ (i 0).val < win0_7.index ⟨(i 0).val / 8192, ht⟩ (0 : Fin 2) * 8192 + 8192
    rw [h0]
    show (i 0).val / 8192 * 8192 ≤ (i 0).val ∧ (i 0).val < (i 0).val / 8192 * 8192 + 8192
    omega
  | ⟨1, _⟩ =>
    show win0_7.index ⟨(i 0).val / 8192, ht⟩ (1 : Fin 2) * 1 ≤ (i 1).val
      ∧ (i 1).val < win0_7.index ⟨(i 0).val / 8192, ht⟩ (1 : Fin 2) * 1 + 1
    rw [h1]
    omega

/-- THE RESULT ARRAY after the run is `G`. -/
theorem final (c : Dev nD) : (dats m 0 c).arrAt 7 cfg0.N = G m c :=
  (dats m 0 c).arrAt_eq_of_cover 7 (G m c) (fun t _ => flushed_eq m c t) cover

/-- The kernel's run, read: the result array at `G`, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Array

end
-- ==== Proof.RefLayers.lean ====
import proofs.«105209_j82188494176671_1_alg».proof.Proof.Gen.ReferenceIdeal.Run
import proofs.«105209_j82188494176671_1_alg».proof.Proof.LibDotRows
import proofs.«105209_j82188494176671_1_alg».proof.Proof.Net
import Idealize.ShloMosaic.Lib.Pipeline.Value
import Idealize.ShloMosaic.Lib.ValueIdx
import Idealize.ShloMosaic.PureOps.Ideal.Laws

/-!
# The reference's layers, read at an index

The reference's result is ten layers on the whole 2097152-row array. Each layer is named here as its operations, the
run's result term is shown to be the composition of these layers (the hidden layers' weights and biases the slices of
the stacked arrays at the layer's number), and each layer is read over the extended reals at a position `(n, j)`:
row `n` of the result is the row-wise layer (`Cert.Net`) of row `n` of the operand. The `dot_general` is a plain sum
over the contracted coordinate, the transposed weight matrix is read with its coordinates exchanged, the bias broadcast
along the rows is read at the column, and slice `l` of a stacked array is the array at leading coordinate `l`.
-/

noncomputable section

namespace Cert.ReferenceIdeal.Layers

open Cert.ReferenceIdeal Cert.ReferenceIdeal.Gen Idealize.ShloMosaic Idealize.ShloMosaic.ValueIdx Idealize.SL.Sem

variable {F : FTy → Type} [FloatOps F]

/-- The input layer on all rows: `x · W0ᵀ + b0`, rectified. -/
def first (x : (⟨S2097152x2, .f32⟩ : BufTy).Contents (Elt F)) (w : (⟨S32x2, .f32⟩ : BufTy).Contents (Elt F))
    (b : (⟨S32, .f32⟩ : BufTy).Contents (Elt F)) : (⟨S2097152x32, .f32⟩ : BufTy).Contents (Elt F) :=
  maximumf (addf (Host.dotGeneral dot_S2097152x2_S2x32_S2097152x32_1_0_0_1_n_n none x (transpose S2x32 [1, 0] w transposes_S32x2_S2x32_1_0))
      (broadcastInDim S2097152x32 ![0, 1] bcast_S1x32_S2097152x32_0_1 (broadcastInDim S1x32 ![1] bcast_S32_S1x32_1 b)))
    (broadcastInDim S2097152x32 ![] bcast_S_S2097152x32 (constant S_ .f32 0x00000000#32))

/-- A hidden layer on all rows, its weights a `1 × 32 × 32` slab and its bias a `1 × 32` row: `h · Wᵀ + b`, rectified. -/
def hidden (h : (⟨S2097152x32, .f32⟩ : BufTy).Contents (Elt F)) (w : (⟨S1x32x32, .f32⟩ : BufTy).Contents (Elt F))
    (b : (⟨S1x32, .f32⟩ : BufTy).Contents (Elt F)) : (⟨S2097152x32, .f32⟩ : BufTy).Contents (Elt F) :=
  maximumf (addf (Host.dotGeneral dot_S2097152x32_S32x32_S2097152x32_1_0_0_1_n_n none h
        (transpose S32x32 [1, 0] (shapeCast _ w shapeCasts_S1x32x32_S32x32) transposes_S32x32_S32x32_1_0))
      (broadcastInDim S2097152x32 ![0, 1] bcast_S1x32_S2097152x32_0_1 (broadcastInDim S1x32 ![1] bcast_S32_S1x32_1 (shapeCast _ b shapeCasts_S1x32_S32))))
    (broadcastInDim S2097152x32 ![] bcast_S_S2097152x32 (constant S_ .f32 0x00000000#32))

/-- The output layer on all rows: `h · Woutᵀ + bout`, no rectifier. -/
def last (h : (⟨S2097152x32, .f32⟩ : BufTy).Contents (Elt F)) (w : (⟨S1x32, .f32⟩ : BufTy).Contents (Elt F))
    (b : (⟨S1, .f32⟩ : BufTy).Contents (Elt F)) : (⟨S2097152x1, .f32⟩ : BufTy).Contents (Elt F) :=
  addf (Host.dotGeneral dot_S2097152x32_S32x1_S2097152x1_1_0_0_1_n_n none h (transpose S32x1 [1, 0] w transposes_S1x32_S32x1_1_0))
    (broadcastInDim S2097152x1 ![0, 1] bcast_S1x1_S2097152x1_0_1 (broadcastInDim S1x1 ![1] bcast_S1_S1x1_1 b))

/-- Slab `l` of the stacked weights is a block of the array. -/
theorem slab_slices (l : Fin 8) : S8x32x32.Slices ![l.val, 0, 0] S1x32x32 :=
  ⟨rfl, fun a => match a with
    | ⟨0, _⟩ => by show l.val + 1 ≤ 8; omega
    | ⟨1, _⟩ => by show 0 + 32 ≤ 32; omega
    | ⟨2, _⟩ => by show 0 + 32 ≤ 32; omega⟩

/-- Row `l` of the stacked biases is a block of the array. -/
theorem brow_slices (l : Fin 8) : S8x32.Slices ![l.val, 0] S1x32 :=
  ⟨rfl, fun a => match a with
    | ⟨0, _⟩ => by show l.val + 1 ≤ 8; omega
    | ⟨1, _⟩ => by show 0 + 32 ≤ 32; omega⟩

/-- Layer `l`'s weights: slab `l` of the stacked array. -/
abbrev slab (W : (⟨S8x32x32, .f32⟩ : BufTy).Contents (Elt F)) (l : Fin 8) : (⟨S1x32x32, .f32⟩ : BufTy).Contents (Elt F) :=
  extractStridedSlice S1x32x32 ![l.val, 0, 0] W (slab_slices l)

/-- Layer `l`'s bias: row `l` of the stacked array. -/
abbrev brow (B : (⟨S8x32, .f32⟩ : BufTy).Contents (Elt F)) (l : Fin 8) : (⟨S1x32, .f32⟩ : BufTy).Contents (Elt F) :=
  extractStridedSlice S1x32 ![l.val, 0] B (brow_slices l)

/-- Slab `l` read at `(0, j, k)` is the stacked array at `(l, j, k)`. -/
theorem slab_apply (W : (⟨S8x32x32, .f32⟩ : BufTy).Contents (Elt F)) (l : Fin 8) (j k : Fin 32) :
    slab W l (ix3 0 j k) = W (ix3 l j k) :=
  extractStridedSlice_apply ![l.val, 0, 0] W (slab_slices l) (ix3 0 j k) (ix3 l j k) (fun a => match a with
    | ⟨0, _⟩ => rfl
    | ⟨1, _⟩ => (Nat.zero_add _).symm
    | ⟨2, _⟩ => (Nat.zero_add _).symm)

/-- Bias row `l` read at `(0, j)` is the stacked array at `(l, j)`. -/
theorem brow_apply (B : (⟨S8x32, .f32⟩ : BufTy).Contents (Elt F)) (l : Fin 8) (j : Fin 32) :
    brow B l (ix2 0 j) = B (ix2 l j) :=
  extractStridedSlice_apply ![l.val, 0] B (brow_slices l) (ix2 0 j) (ix2 l j) (fun a => match a with
    | ⟨0, _⟩ => rfl
    | ⟨1, _⟩ => (Nat.zero_add _).symm)

/-- THE RUN'S RESULT TERM is the ten layers composed, hidden layer `l` on slab `l` and bias row `l`. -/
theorem res_eq (m : (ℓ : Loc nD τ sig) → Buf (Elt F) ℓ) (c : Dev nD) :
    Cert.ReferenceIdeal.Value.res_main_v90 m c
      = last (hidden (hidden (hidden (hidden (hidden (hidden (hidden (hidden
          (first (m ((c.tc : Thread nD τ).loc main_arg0)) (m ((c.tc : Thread nD τ).loc main_arg1)) (m ((c.tc : Thread nD τ).loc main_arg2)))
          (slab (m ((c.tc : Thread nD τ).loc main_arg3)) 0) (brow (m ((c.tc : Thread nD τ).loc main_arg4)) 0))
          (slab (m ((c.tc : Thread nD τ).loc main_arg3)) 1) (brow (m ((c.tc : Thread nD τ).loc main_arg4)) 1))
          (slab (m ((c.tc : Thread nD τ).loc main_arg3)) 2) (brow (m ((c.tc : Thread nD τ).loc main_arg4)) 2))
          (slab (m ((c.tc : Thread nD τ).loc main_arg3)) 3) (brow (m ((c.tc : Thread nD τ).loc main_arg4)) 3))
          (slab (m ((c.tc : Thread nD τ).loc main_arg3)) 4) (brow (m ((c.tc : Thread nD τ).loc main_arg4)) 4))
          (slab (m ((c.tc : Thread nD τ).loc main_arg3)) 5) (brow (m ((c.tc : Thread nD τ).loc main_arg4)) 5))
          (slab (m ((c.tc : Thread nD τ).loc main_arg3)) 6) (brow (m ((c.tc : Thread nD τ).loc main_arg4)) 6))
          (slab (m ((c.tc : Thread nD τ).loc main_arg3)) 7) (brow (m ((c.tc : Thread nD τ).loc main_arg4)) 7))
          (m ((c.tc : Thread nD τ).loc main_arg5)) (m ((c.tc : Thread nD τ).loc main_arg6)) := by
  unfold Cert.ReferenceIdeal.Value.res_main_v90
  rfl

/-- The rectifier's zero, broadcast over the array, read anywhere. -/
theorem zero_apply (i : S2097152x32.Idx) :
    broadcastInDim (α := Ideal .f32) S2097152x32 ![] bcast_S_S2097152x32 (constant (F := Ideal) S_ .f32 0x00000000#32) i
      = Ideal.ofBits .f32 0x00000000#32 :=
  broadcastInDim_apply ![] bcast_S_S2097152x32 _ i ix0 (fun a => a.elim0)

/-- A 32-entry bias, broadcast along the rows, read at `(n, j)`. -/
theorem bias_apply (b : (⟨S32, .f32⟩ : BufTy).Contents (Elt Ideal)) (n : Fin 2097152) (j : Fin 32) :
    broadcastInDim S2097152x32 ![0, 1] bcast_S1x32_S2097152x32_0_1 (broadcastInDim S1x32 ![1] bcast_S32_S1x32_1 b) (ix2 n j) = b (ix1 j) :=
  (broadcastInDim_apply ![0, 1] bcast_S1x32_S2097152x32_0_1 _ (ix2 n j) (ix2 0 j) (fun a => match a with
    | ⟨0, _⟩ => rfl
    | ⟨1, _⟩ => rfl)).trans
  (broadcastInDim_apply ![1] bcast_S32_S1x32_1 b (ix2 0 j) (ix1 j) (fun a => match a with
    | ⟨0, _⟩ => rfl))

/-- Row `n` of the input layer's result is the row-wise layer of row `n` of the input. -/
theorem first_row (x : (⟨S2097152x2, .f32⟩ : BufTy).Contents (Elt Ideal)) (w : (⟨S32x2, .f32⟩ : BufTy).Contents (Elt Ideal))
    (b : (⟨S32, .f32⟩ : BufTy).Contents (Elt Ideal)) (n : Fin 2097152) :
    (fun j : Fin 32 => first (F := Ideal) x w b (ix2 n j))
      = Cert.Net.dense (fun j k => w (ix2 j k)) (fun j => b (ix1 j)) (fun k => x (ix2 n k)) := by
  funext j
  unfold first Cert.Net.dense Cert.Net.relu Cert.Net.affine
  rw [maximumf_apply, addf_apply, zero_apply, bias_apply]
  refine congrArg₂ max (congrArg₂ (· + ·) ?_ rfl) rfl
  refine (Cert.Lib.DotRows.dotGeneral_rows dot_S2097152x2_S2x32_S2097152x32_1_0_0_1_n_n rfl rfl rfl rfl rfl rfl none _ _ _ n j).trans ?_
  refine Finset.sum_congr rfl fun k _ => congrArg (x (ix2 n k) * ·) ?_
  exact transpose_apply [1, 0] w transposes_S32x2_S2x32_1_0 (ix2 k j) (ix2 j k) (fun a => match a with
    | ⟨0, _⟩ => rfl
    | ⟨1, _⟩ => rfl)

/-- Row `n` of a hidden layer's result is the row-wise layer of row `n` of its operand, with the slab's matrix and
    the bias row read at their one leading position. -/
theorem hidden_row (h : (⟨S2097152x32, .f32⟩ : BufTy).Contents (Elt Ideal)) (w : (⟨S1x32x32, .f32⟩ : BufTy).Contents (Elt Ideal))
    (b : (⟨S1x32, .f32⟩ : BufTy).Contents (Elt Ideal)) (n : Fin 2097152) :
    (fun j : Fin 32 => hidden (F := Ideal) h w b (ix2 n j))
      = Cert.Net.dense (fun j k => w (ix3 0 j k)) (fun j => b (ix2 0 j)) (fun k => h (ix2 n k)) := by
  funext j
  unfold hidden Cert.Net.dense Cert.Net.relu Cert.Net.affine
  rw [maximumf_apply, addf_apply, zero_apply, bias_apply]
  refine congrArg₂ max (congrArg₂ (· + ·) ?_ ?_) rfl
  · refine (Cert.Lib.DotRows.dotGeneral_rows dot_S2097152x32_S32x32_S2097152x32_1_0_0_1_n_n rfl rfl rfl rfl rfl rfl none _ _ _ n j).trans ?_
    refine Finset.sum_congr rfl fun k _ => congrArg (h (ix2 n k) * ·) ?_
    refine (transpose_apply [1, 0] _ transposes_S32x32_S32x32_1_0 (ix2 k j) (ix2 j k) (fun a => match a with
      | ⟨0, _⟩ => rfl
      | ⟨1, _⟩ => rfl)).trans ?_
    exact shapeCast_apply w shapeCasts_S1x32x32_S32x32 (ix2 j k) (ix3 0 j k) (by
      rw [Shape.rowMajor_val_three, Shape.rowMajor_val_two]
      show (0 * 32 + j.val) * 32 + k.val = j.val * 32 + k.val
      omega)
  · exact shapeCast_apply b shapeCasts_S1x32_S32 (ix1 j) (ix2 0 j) (by
      rw [Shape.rowMajor_val_two, Shape.rowMajor_val_one]
      show 0 * 32 + j.val = j.val
      omega)

/-- Row `n` of the output layer's result is the affine map of row `n` of its operand. -/
theorem last_row (h : (⟨S2097152x32, .f32⟩ : BufTy).Contents (Elt Ideal)) (w : (⟨S1x32, .f32⟩ : BufTy).Contents (Elt Ideal))
    (b : (⟨S1, .f32⟩ : BufTy).Contents (Elt Ideal)) (n : Fin 2097152) :
    (fun j : Fin 1 => last (F := Ideal) h w b (ix2 n j))
      = Cert.Net.affine (fun j k => w (ix2 j k)) (fun j => b (ix1 j)) (fun k => h (ix2 n k)) := by
  funext j
  unfold last Cert.Net.affine
  rw [addf_apply]
  refine congrArg₂ (· + ·) ?_ ?_
  · refine (Cert.Lib.DotRows.dotGeneral_rows dot_S2097152x32_S32x1_S2097152x1_1_0_0_1_n_n rfl rfl rfl rfl rfl rfl none _ _ _ n j).trans ?_
    refine Finset.sum_congr rfl fun k _ => congrArg (h (ix2 n k) * ·) ?_
    exact transpose_apply [1, 0] w transposes_S1x32_S32x1_1_0 (ix2 k j) (ix2 j k) (fun a => match a with
      | ⟨0, _⟩ => rfl
      | ⟨1, _⟩ => rfl)
  · have hj : j.val = 0 := by have := j.isLt; omega
    refine (broadcastInDim_apply ![0, 1] bcast_S1x1_S2097152x1_0_1 _ (ix2 n j) (ix2 (0 : Fin 1) (0 : Fin 1)) (fun a => match a with
      | ⟨0, _⟩ => rfl
      | ⟨1, _⟩ => rfl)).trans ?_
    exact broadcastInDim_apply ![1] bcast_S1_S1x1_1 b (ix2 (0 : Fin 1) (0 : Fin 1)) (ix1 j) (fun a => match a with
      | ⟨0, _⟩ => hj)

/-- THE REFERENCE'S RESULT, row by row: at row `n` the network of row `n` of the input, with the argument arrays'
    entries as weights and biases. -/
theorem res_row (m : (ℓ : Loc nD τ sig) → Buf (Elt Ideal) ℓ) (c : Dev nD) (n : Fin 2097152) :
    (fun j : Fin 1 => Cert.ReferenceIdeal.Value.res_main_v90 (F := Ideal) m c (ix2 n j))
      = Cert.Net.mlp (fun j k => m ((c.tc : Thread nD τ).loc main_arg1) (ix2 j k)) (fun j => m ((c.tc : Thread nD τ).loc main_arg2) (ix1 j))
          (fun l j k => m ((c.tc : Thread nD τ).loc main_arg3) (ix3 l j k)) (fun l j => m ((c.tc : Thread nD τ).loc main_arg4) (ix2 l j))
          (fun j k => m ((c.tc : Thread nD τ).loc main_arg5) (ix2 j k)) (fun j => m ((c.tc : Thread nD τ).loc main_arg6) (ix1 j))
          (fun k => m ((c.tc : Thread nD τ).loc main_arg0) (ix2 n k)) := by
  rw [res_eq]
  unfold Cert.Net.mlp
  rw [last_row, hidden_row, hidden_row, hidden_row, hidden_row, hidden_row, hidden_row, hidden_row, hidden_row, first_row]
  simp only [slab_apply, brow_apply]

/-- THE REFERENCE'S RESULT ARRAY is `Cert.Net.out` of the seven argument arrays as launched. -/
theorem res_out (m : (ℓ : Loc nD τ sig) → Buf (Elt Ideal) ℓ) (c : Dev nD) :
    Cert.ReferenceIdeal.Value.res_main_v90 (F := Ideal) m c
      = Cert.Net.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  funext i
  obtain ⟨n, j, rfl⟩ : ∃ (n : Fin 2097152) (j : Fin 1), i = ix2 n j := ⟨i 0, i 1, eq_ix2 i⟩
  exact (congrFun (res_row m c n) j).trans (Cert.Net.out_apply _ _ _ _ _ _ _ n j).symm

end Cert.ReferenceIdeal.Layers

end
-- ==== Proof.lean ====
/-
  A ten-layer perceptron on 2097152 rows of two features, the kernel against its reference, equal over the
  extended reals.

  Both programs compute, row by row, `x ↦ Wout · relu(W₇ · … relu(W₀ · relu(W0 · x + b0) + b₀) … + b₇) + bout`
  (`Cert.Net.mlp`): an affine map into 32 entries and the rectifier, eight affine maps of 32 entries each followed by
  the rectifier, and an affine map onto one entry. The kernel does so 8192 rows at a time over 256 grid points, with
  its matrix products into a zero accumulator and its operands passed through a narrower float format, which over the
  reals is the identity; the reference does so on all rows at once with `dot_general`. A matrix product and a
  `dot_general` are the same finite sum over the contracted coordinate, so layer by layer the two agree, and no law
  beyond reading each operation at an index is used: finiteness of the inputs is never opened.

  Modules: `Net` (the row-wise network and the result array as one function of the arguments), `LibDotRows` (a
  rows-by-columns contraction at an index), `KernelLayers` and `RefLayers` (each program's layers at an index, and its
  result row by row), `KernelArray` (the kernel's 256 written-back blocks tile the result array). The idealization
  rewrote nothing, so the fourth conjunct is trivial; the three frames are the generated frame runs.
-/
import proofs.«105209_j82188494176671_1_alg».proof.Defs
import proofs.«105209_j82188494176671_1_alg».proof.Proof.Gen.Kernel
import proofs.«105209_j82188494176671_1_alg».proof.Proof.Gen.Kernel.Skeleton
import proofs.«105209_j82188494176671_1_alg».proof.Proof.Gen.Kernel.Launch
import proofs.«105209_j82188494176671_1_alg».proof.Proof.Gen.Kernel.Points
import proofs.«105209_j82188494176671_1_alg».proof.Proof.Gen.Kernel.Frame
import proofs.«105209_j82188494176671_1_alg».proof.Proof.Gen.KernelIdeal
import proofs.«105209_j82188494176671_1_alg».proof.Proof.Gen.KernelIdeal.Skeleton
import proofs.«105209_j82188494176671_1_alg».proof.Proof.Gen.KernelIdeal.Launch
import proofs.«105209_j82188494176671_1_alg».proof.Proof.Gen.KernelIdeal.Points
import proofs.«105209_j82188494176671_1_alg».proof.Proof.Gen.KernelIdeal.Frame
import proofs.«105209_j82188494176671_1_alg».proof.Proof.Gen.ReferenceIdeal
import proofs.«105209_j82188494176671_1_alg».proof.Proof.Gen.Pre_finite_inputs
import proofs.«105209_j82188494176671_1_alg».proof.Proof.Gen.KernelIdeal.Value
import proofs.«105209_j82188494176671_1_alg».proof.Proof.Gen.ReferenceIdeal.Run
import proofs.«105209_j82188494176671_1_alg».proof.Proof.KernelArray
import proofs.«105209_j82188494176671_1_alg».proof.Proof.RefLayers
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the result array at the network of each
    row of the input: the kernel's 256 blocks tile that array, the reference's composed term is it. -/
theorem algebraic : Cert.algebraic_KernelIdeal_ReferenceIdeal := by
  intro m ρ m' ρ' _ hagree
  refine ⟨fun c => Cert.KernelIdeal.Array.G m c, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Layers.res_out]
  obtain ⟨e0, e1, e2, e3, e4, e5, e6⟩ := hagree c
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
